-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S1x64 : Shape := ⟨2, ![1, 64]⟩
abbrev S100000x40 : Shape := ⟨2, ![100000, 40]⟩
abbrev S2000x40 : Shape := ⟨2, ![2000, 40]⟩
abbrev S1700000x40 : Shape := ⟨2, ![1700000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 76
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S1700000x1, .f32⟩
  | .hbm, ⟨40, _⟩ => ⟨S100000x64, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x40, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x40, .f32⟩
  | .hbm, ⟨68, _⟩ => ⟨S1700000x40, .f32⟩
  | .hbm, ⟨69, _⟩ => ⟨S1700000x40, .f32⟩
  | .hbm, ⟨70, _⟩ => ⟨S_, .f32⟩
  | .hbm, ⟨71, _⟩ => ⟨S100000x40, .f32⟩
  | .hbm, ⟨72, _⟩ => ⟨S1700000x1, .i32⟩
  | .hbm, ⟨73, _⟩ => ⟨S100000x40, .f32⟩
  | .hbm, ⟨74, _⟩ => ⟨S1x40, .f32⟩
  | .hbm, ⟨75, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S2000x64_S2000x64 : S2000x64.ShapeCasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x40_S2000x40_1_0_0_1_n_n_wf : DotDims.WF S2000x64 S64x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x40, .f32⟩
  | .hbm, ⟨63, _⟩ => ⟨S100000, .i32⟩
  | .hbm, ⟨64, _⟩ => ⟨S1700000, .i32⟩
  | .hbm, ⟨65, _⟩ => ⟨S1700000, .i32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S1700000x1, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x40, .f32⟩
  | .hbm, ⟨102, _⟩ => ⟨S1700000x40, .f32⟩
  | .hbm, ⟨103, _⟩ => ⟨S1700000x40, .f32⟩
  | .hbm, ⟨104, _⟩ => ⟨S_, .f32⟩
  | .hbm, ⟨105, _⟩ => ⟨S100000x40, .f32⟩
  | .hbm, ⟨106, _⟩ => ⟨S1700000x1, .i32⟩
  | .hbm, ⟨107, _⟩ => ⟨S100000x40, .f32⟩
  | .hbm, ⟨108, _⟩ => ⟨S1x40, .f32⟩
  | .hbm, ⟨109, _⟩ => ⟨S100000x40, .f32⟩
  | .hbm, ⟨110, _⟩ => ⟨S100000x40, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x40, .f32⟩
  | .hbm, ⟨118, _⟩ => ⟨S100000x40, .f32⟩
  | .hbm, ⟨119, _⟩ => ⟨S100000x40, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x40, .f32⟩
  | .hbm, ⟨125, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_v70 : Ref sig .tc := ⟨.hbm, 94, rfl⟩
abbrev main_v71 : Ref sig .tc := ⟨.hbm, 95, rfl⟩
abbrev main_c_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call1_cst : Ref sig .tc := ⟨.hbm, 111, rfl⟩
abbrev main_call1_v0 : Ref sig .tc := ⟨.hbm, 112, rfl⟩
abbrev main_call1_cst_0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_cst_1 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_v85 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The graph-convolution network both programs compute, stage by stage, as whole-array functions in the reference's own
  host operations. Two layers; each layer is a dense product `x · W`, then the normalised neighbourhood sum: row `v` of the
  result is the sum, over the edges `(s, d)` with `d = v` (every node carries a self loop), of `coef(s, d) · h[s]` with
  `coef(s, d) = deg(s)^(-1/2) · deg(d)^(-1/2)` and `deg` the in-degree counted with the self loop; then the bias is added.
  Layer 1 ends in `max(·, 0)`, layer 2 in the row-wise log-softmax `z - max z - log Σ exp (z - max z)`.
  The edge bookkeeping (the two index vectors with the self loops appended, jnp's wrap of negative indices, the
  coefficient) and the two neighbourhood sums are kept as named functions of their operands: both programs apply the same
  gathers and scatter-adds, so nothing here ever opens them.
-/
import proofs.«145096_j53919019434434_1_alg».proof.ReferenceIdeal
import proofs.«145096_j53919019434434_1_alg».proof.Proof.Gen.ReferenceIdeal

noncomputable section

namespace Cert.ReferenceIdeal.Spec

open Cert.ReferenceIdeal Cert.ReferenceIdeal.Gen Idealize.ShloMosaic Idealize.ShloMosaic.TcCoe

variable {F : FTy → Type} [FloatOps F]

/-- Row `r` of the edge list (`r = 0`: sources, `r = 1`: destinations) followed by `0 … n-1`, the self loops. -/
def srcs (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

def dsts (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index vector as the one-column matrix a gather or a scatter takes. -/
def col (s : (⟨S1700000, .i32⟩ : BufTy).Contents (Elt F)) : (⟨S1700000x1, .i32⟩ : BufTy).Contents (Elt F) :=
  broadcastInDim S1700000x1 ![0] bcast_S1700000_S1700000x1_0 s

/-- jnp's reading of a negative index: `n` is added to it. -/
def wrap (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- `deg^(-1/2)`: the in-degree (ones scatter-added at the destinations, self loops included), then `rsqrt`. -/
def invSqrtDeg (d : (⟨S1700000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (col d) (broadcastInDim S1700000 ![] bcast_S_S1700000 (constant S_ .f32 0x3F800000#32)))

/-- The edge coefficient `deg(s)^(-1/2) · deg(d)^(-1/2)`, one per edge, as a column. -/
def coef (s d : (⟨S1700000, .i32⟩ : BufTy).Contents (Elt F)) : (⟨S1700000x1, .f32⟩ : BufTy).Contents (Elt F) :=
  broadcastInDim S1700000x1 ![0] bcast_S1700000_S1700000x1_0 (mulf (Host.gather gather_S100000_S1700000x1_S1700000_n_0_n_n_0_1_1 (invSqrtDeg d) (col (wrap s))) (Host.gather gather_S100000_S1700000x1_S1700000_n_0_n_n_0_1_1 (invSqrtDeg d) (col (wrap d))))

/-- Layer 1's neighbourhood sum: the rows `h[s]` scaled by the coefficient, scatter-added at `d` into zeros. -/
def agg64 (s d : (⟨S1700000, .i32⟩ : BufTy).Contents (Elt F)) (cf : (⟨S1700000x1, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (col d) (mulf (Host.gather gather_S100000x64_S1700000x1_S1700000x64_1_0_n_n_0_1_164 h (col (wrap s))) (broadcastInDim S1700000x64 ![0, 1] bcast_S1700000x1_S1700000x64_0_1 cf))

/-- Layer 2's neighbourhood sum, on rows of 40. -/
def agg40 (s d : (⟨S1700000, .i32⟩ : BufTy).Contents (Elt F)) (cf : (⟨S1700000x1, .f32⟩ : BufTy).Contents (Elt F))
    (h : (⟨S100000x40, .f32⟩ : BufTy).Contents (Elt F)) : (⟨S100000x40, .f32⟩ : BufTy).Contents (Elt F) :=
  Host.scatterAdd scatter_S100000x40_S1700000x1_S1700000x40_1_0_0_1 (broadcastInDim S100000x40 ![] bcast_S_S100000x40 (constant S_ .f32 0x00000000#32)) (col d) (mulf (Host.gather gather_S100000x40_S1700000x1_S1700000x40_1_0_n_n_0_1_140 h (col (wrap s))) (broadcastInDim S1700000x40 ![0, 1] bcast_S1700000x1_S1700000x40_0_1 cf))

/-- The dense products `x · W`. -/
def lin1 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

def lin2 (x : (⟨S100000x64, .f32⟩ : BufTy).Contents (Elt F)) (w : (⟨S64x40, .f32⟩ : BufTy).Contents (Elt F)) : (⟨S100000x40, .f32⟩ : BufTy).Contents (Elt F) :=
  Host.dotGeneral dot_S100000x64_S64x40_S100000x40_1_0_0_1_n_n none x w

/-- A bias vector as the one-row matrix that is added to every row. -/
def row64 (b : (⟨S64, .f32⟩ : BufTy).Contents (Elt F)) : (⟨S1x64, .f32⟩ : BufTy).Contents (Elt F) :=
  broadcastInDim S1x64 ![1] bcast_S64_S1x64_1 b

def row40 (b : (⟨S40, .f32⟩ : BufTy).Contents (Elt F)) : (⟨S1x40, .f32⟩ : BufTy).Contents (Elt F) :=
  broadcastInDim S1x40 ![1] bcast_S40_S1x40_1 b

/-- `max(a + b, 0)`, the bias row added to every row. -/
def biasRelu (a : (⟨S100000x64, .f32⟩ : BufTy).Contents (Elt F)) (b : (⟨S1x64, .f32⟩ : BufTy).Contents (Elt F)) : (⟨S100000x64, .f32⟩ : BufTy).Contents (Elt F) :=
  maximumf (addf a (broadcastInDim S100000x64 ![0, 1] bcast_S1x64_S100000x64_0_1 b)) (broadcastInDim S100000x64 ![] bcast_S_S100000x64 (constant S_ .f32 0x00000000#32))

/-- `z = a + b` with the bias row added to every row. -/
def biased40 (a : (⟨S100000x40, .f32⟩ : BufTy).Contents (Elt F)) (b : (⟨S1x40, .f32⟩ : BufTy).Contents (Elt F)) : (⟨S100000x40, .f32⟩ : BufTy).Contents (Elt F) :=
  addf a (broadcastInDim S100000x40 ![0, 1] bcast_S1x40_S100000x40_0_1 b)

/-- `z - max z`, the maximum taken along each row (from `-inf`, and once more against `-inf`, as jax prints it). -/
def shifted (z : (⟨S100000x40, .f32⟩ : BufTy).Contents (Elt F)) : (⟨S100000x40, .f32⟩ : BufTy).Contents (Elt F) :=
  subf z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_))))

/-- `t - log Σ exp t` along each row. -/
def lessLogSumExp (t : (⟨S100000x40, .f32⟩ : BufTy).Contents (Elt F)) : (⟨S100000x40, .f32⟩ : BufTy).Contents (Elt F) :=
  subf t (broadcastInDim S100000x40 ![0, 1] bcast_S100000x1_S100000x40_0_1 (Host.log (broadcastInDim S100000x1 ![0] bcast_S100000_S100000x1_0 (Host.reduceAdd (Host.exp t) (constant S_ .f32 0x00000000#32) reducesTo_S100000x40_S100000_d1 h_S_))))

/-- The row-wise log-softmax of `a + b`. -/
def biasLogSoftmax (a : (⟨S100000x40, .f32⟩ : BufTy).Contents (Elt F)) (b : (⟨S1x40, .f32⟩ : BufTy).Contents (Elt F)) : (⟨S100000x40, .f32⟩ : BufTy).Contents (Elt F) :=
  lessLogSumExp (shifted (biased40 a b))

/-- The whole network on the six arguments. -/
def net (x : (⟨S100000x128, .f32⟩ : BufTy).Contents (Elt F)) (e : (⟨S2x1600000, .i32⟩ : BufTy).Contents (Elt F))
    (w1 : (⟨S128x64, .f32⟩ : BufTy).Contents (Elt F)) (b1 : (⟨S64, .f32⟩ : BufTy).Contents (Elt F))
    (w2 : (⟨S64x40, .f32⟩ : BufTy).Contents (Elt F)) (b2 : (⟨S40, .f32⟩ : BufTy).Contents (Elt F)) : (⟨S100000x40, .f32⟩ : BufTy).Contents (Elt F) :=
  biasLogSoftmax (agg40 (srcs e) (dsts e) (coef (srcs e) (dsts e))
    (lin2 (biasRelu (agg64 (srcs e) (dsts e) (coef (srcs e) (dsts e)) (lin1 x w1)) (row64 b1)) w2)) (row40 b2)

end Cert.ReferenceIdeal.Spec

end
-- ==== Proof.RowMath.lean ====
/-
  A row's log-softmax on the extended reals, in the one form both programs are read to: with `M` the fold of `max` over the
  row from the `-inf` word, entry `q` is `(z q - M) - log Σ_k exp (z k - M)`. And the coordinates of a matrix index that a
  reduction along the columns puts back: row `r` with column `k` inserted is `(r, k)`.
-/
import Idealize.ShloMosaic.PureOps.Ideal
import Idealize.ShloMosaic.PureOps.Ideal.Laws
import Idealize.ShloMosaic.PureOps.Reduce
import Idealize.ShloMosaic.Lib.ValueIdx
import Mathlib.Data.Finset.Fold

noncomputable section

namespace Cert.RowMath

open Idealize.ShloMosaic Idealize.ShloMosaic.ValueIdx

/-- The maximum of a row of 40, folded from the `-inf` word. -/
def rowMax (z : Fin 40 → Ideal .f32) : Ideal .f32 :=
  (Finset.univ : Finset (Fin 40)).fold max (Ideal.ofBits .f32 0xFF800000#32) z

/-- Entry `q` of the row's log-softmax. -/
def rowLogSoftmax (z : Fin 40 → Ideal .f32) (q : Fin 40) : Ideal .f32 :=
  (z q - rowMax z) - Ideal.log (∑ k : Fin 40, Ideal.exp (z k - rowMax z))

/-- A second maximum against the fold's own starting word changes nothing. -/
theorem max_rowMax (z : Fin 40 → Ideal .f32) : max (Ideal.ofBits .f32 0xFF800000#32) (rowMax z) = rowMax z :=
  max_eq_right ((Finset.le_fold_max _).mpr (Or.inl le_rfl))

/-- Reducing a matrix along its columns: row `r` with the column `k` put back is the entry `(r, k)`. -/
theorem lift_col {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

end Cert.RowMath

end
-- ==== Proof.SpecAt.lean ====
/-
  The network's stages read at one entry, on the extended reals: a dense product's entry `(r, q)` is `Σ_k x[r, k] · w[k, q]`;
  the activation's is `max(a[r, q] + b[q], 0)`; the last stage's is the log-softmax of the row `a[r, ·] + b[·]` at `q`
  (the reduce's maximum from `-inf`, the second maximum against `-inf` that changes nothing, the host sum from zero).
-/
import proofs.«145096_j53919019434434_1_alg».proof.Proof.Spec
import proofs.«145096_j53919019434434_1_alg».proof.Proof.RowMath
import Idealize.ShloMosaic.Lib.Pipeline.Value
import Idealize.ShloMosaic.Lib.ValueIdx
import Idealize.ShloMosaic.PureOps.Ideal.Laws

noncomputable section

namespace Cert.ReferenceIdeal.Spec

open Cert.ReferenceIdeal Cert.ReferenceIdeal.Gen Idealize.ShloMosaic Idealize.ShloMosaic.TcCoe Idealize.ShloMosaic.ValueIdx
open Cert.RowMath

/-! ## The dense products -/

theorem dot1_lhs0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dot1_lhs1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem dot1_rhs0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem dot1_rhs1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- Entry `(r, q)` of `x · w` is the sum over the 128 shared coordinates. -/
theorem lin1_apply (x : (⟨S100000x128, .f32⟩ : BufTy).Contents (Elt Ideal)) (w : (⟨S128x64, .f32⟩ : BufTy).Contents (Elt Ideal))
    (r : Fin 100000) (q : Fin 64) :
    lin1 (F := Ideal) x w (ix2 r q) = ∑ k : Fin 128, x (ix2 r k) * w (ix2 k q) := by
  unfold lin1
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r q) ((ValueIdx.contrEquiv1 dot_S100000x128_S128x64_S100000x64_1_0_0_1_n_n 128 rfl rfl).symm k) = ix2 r k := funext fun a => Fin.ext (by
    match a with
    | ⟨0, _⟩ => exact dot1_lhs0 _ _
    | ⟨1, _⟩ => exact (dot1_lhs1 _ _).trans hk)
  have er : dot_S100000x128_S128x64_S100000x64_1_0_0_1_n_n.rhsIdx (ix2 r q) ((ValueIdx.contrEquiv1 dot_S100000x128_S128x64_S100000x64_1_0_0_1_n_n 128 rfl rfl).symm k) = ix2 k q := funext fun a => Fin.ext (by
    match a with
    | ⟨0, _⟩ => exact (dot1_rhs0 _ _).trans hk
    | ⟨1, _⟩ => exact dot1_rhs1 _ _)
  rw [el, er]

theorem dot2_lhs0 (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
theorem dot2_lhs1 (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q
theorem dot2_rhs0 (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q
theorem dot2_rhs1 (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- Entry `(r, q)` of the second product: the sum over the 64 shared coordinates. -/
theorem lin2_apply (x : (⟨S100000x64, .f32⟩ : BufTy).Contents (Elt Ideal)) (w : (⟨S64x40, .f32⟩ : BufTy).Contents (Elt Ideal))
    (r : Fin 100000) (q : Fin 40) :
    lin2 (F := Ideal) x w (ix2 r q) = ∑ k : Fin 64, x (ix2 r k) * w (ix2 k q) := by
  unfold lin2
  simp only [Host.dotGeneral]
  rw [Ideal.dotGeneral_apply, ← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx (ix2 r q) ((ValueIdx.contrEquiv1 dot_S100000x64_S64x40_S100000x40_1_0_0_1_n_n 64 rfl rfl).symm k) = ix2 r k := funext fun a => Fin.ext (by
    match a with
    | ⟨0, _⟩ => exact dot2_lhs0 _ _
    | ⟨1, _⟩ => exact (dot2_lhs1 _ _).trans hk)
  have er : dot_S100000x64_S64x40_S100000x40_1_0_0_1_n_n.rhsIdx (ix2 r q) ((ValueIdx.contrEquiv1 dot_S100000x64_S64x40_S100000x40_1_0_0_1_n_n 64 rfl rfl).symm k) = ix2 k q := funext fun a => Fin.ext (by
    match a with
    | ⟨0, _⟩ => exact (dot2_rhs0 _ _).trans hk
    | ⟨1, _⟩ => exact dot2_rhs1 _ _)
  rw [el, er]

/-! ## The activation -/

/-- Entry `(r, q)` of `max(a + b, 0)`: the bias row is read at `(0, q)`, the zero splat is the real `0`. -/
theorem biasRelu_apply (a : (⟨S100000x64, .f32⟩ : BufTy).Contents (Elt Ideal)) (b : (⟨S1x64, .f32⟩ : BufTy).Contents (Elt Ideal))
    (r : Fin 100000) (q : Fin 64) :
    biasRelu (F := Ideal) a b (ix2 r q) = max (a (ix2 r q) + b (ix2 (0 : Fin 1) q)) 0 := by
  unfold biasRelu
  show max (a (ix2 r q) + broadcastInDim S100000x64 ![0, 1] bcast_S1x64_S100000x64_0_1 b (ix2 r q))
    (broadcastInDim S100000x64 ![] bcast_S_S100000x64 (constant (F := Ideal) S_ .f32 0x00000000#32) (ix2 r q)) = _
  rw [broadcastInDim_apply _ bcast_S1x64_S100000x64_0_1 b (ix2 r q) (ix2 (0 : Fin 1) q) (fun a => match a with
      | ⟨0, _⟩ => by show (0 : Nat) = if (1 : Nat) = 1 then 0 else r.val; rw [if_pos rfl]
      | ⟨1, _⟩ => by show q.val = if (64 : Nat) = 1 then 0 else q.val; rw [if_neg (by decide)]),
    broadcastInDim_apply _ bcast_S_S100000x64 (constant (F := Ideal) S_ .f32 0x00000000#32) (ix2 r q) ix0 (fun a => a.elim0)]
  show max _ (Ideal.ofBits .f32 0x00000000#32) = _
  rw [Ideal.ofBits_zero_f32]

/-! ## The log-softmax -/

/-- Entry `(r, k)` of `a + b` with the bias row added to every row. -/
theorem biased40_apply (a : (⟨S100000x40, .f32⟩ : BufTy).Contents (Elt Ideal)) (b : (⟨S1x40, .f32⟩ : BufTy).Contents (Elt Ideal))
    (r : Fin 100000) (k : Fin 40) :
    biased40 (F := Ideal) a b (ix2 r k) = a (ix2 r k) + b (ix2 (0 : Fin 1) k) := by
  unfold biased40
  show a (ix2 r k) + broadcastInDim S100000x40 ![0, 1] bcast_S1x40_S100000x40_0_1 b (ix2 r k) = _
  rw [broadcastInDim_apply _ bcast_S1x40_S100000x40_0_1 b (ix2 r k) (ix2 (0 : Fin 1) k) (fun a => match a with
      | ⟨0, _⟩ => by show (0 : Nat) = if (1 : Nat) = 1 then 0 else r.val; rw [if_pos rfl]
      | ⟨1, _⟩ => by show k.val = if (40 : Nat) = 1 then 0 else k.val; rw [if_neg (by decide)])]

/-- A value per row, made a column and spread over the 40 columns: entry `(r, q)` is the value of row `r`. -/
theorem column_apply (v : FVec Ideal S100000 .f32) (r : Fin 100000) (q : Fin 40) :
    broadcastInDim S100000x40 ![0, 1] bcast_S100000x1_S100000x40_0_1 (broadcastInDim S100000x1 ![0] bcast_S100000_S100000x1_0 v) (ix2 r q) = v (ix1 r) := by
  rw [broadcastInDim_apply _ bcast_S100000x1_S100000x40_0_1 _ (ix2 r q) (ix2 r (0 : Fin 1)) (fun a => match a with
      | ⟨0, _⟩ => by show r.val = if (100000 : Nat) = 1 then 0 else r.val; rw [if_neg (by decide)]
      | ⟨1, _⟩ => by show (0 : Nat) = if (1 : Nat) = 1 then 0 else q.val; rw [if_pos rfl]),
    broadcastInDim_apply _ bcast_S100000_S100000x1_0 v (ix2 r (0 : Fin 1)) (ix1 r) (fun a => match a with
      | ⟨0, _⟩ => by show r.val = if (100000 : Nat) = 1 then 0 else r.val; rw [if_neg (by decide)])]

/-- Entry `(r, q)` of `z - max z`: the row maximum is the fold of `max` from `-inf` over the row. -/
theorem shifted_apply (z : FVec Ideal S100000x40 .f32) (r : Fin 100000) (q : Fin 40) :
    shifted (F := Ideal) z (ix2 r q) = z (ix2 r q) - rowMax (fun k => z (ix2 r k)) := by
  unfold shifted
  rw [subf_apply, column_apply, maximumf_apply,
    broadcastInDim_apply _ bcast_S_S100000 (constant (F := Ideal) S_ .f32 0xFF800000#32) (ix1 r) ix0 (fun a => a.elim0),
    Host.reduce_eq_fold_single FloatOps.maximumf z _ reducesTo_S100000x40_S100000_d1 (by decide) h_S_ (ix1 r)]
  have hrow : (Finset.univ : Finset (Fin (S100000x40.size 1))).fold FloatOps.maximumf (constant (F := Ideal) S_ .f32 0xFF800000#32 (Shape.Idx.first h_S_))
      (z ∘ (by decide : S100000x40.Reduces [1] S100000).lift (ix1 r)) = rowMax (fun k => z (ix2 r k)) := by
    unfold rowMax
    exact congrArg (fun f => (Finset.univ : Finset (Fin 40)).fold max (Ideal.ofBits .f32 0xFF800000#32) f)
      (funext fun k => congrArg z (lift_col (by decide : S100000x40.Reduces [1] S100000) r k))
  rw [hrow]
  exact congrArg (fun s => z (ix2 r q) - s) (max_rowMax _)

/-- Entry `(r, q)` of `t - log Σ exp t`: the host sum starts from the real zero. -/
theorem lessLogSumExp_apply (t : FVec Ideal S100000x40 .f32) (r : Fin 100000) (q : Fin 40) :
    lessLogSumExp (F := Ideal) t (ix2 r q) = t (ix2 r q) - Ideal.log (∑ k : Fin 40, Ideal.exp (t (ix2 r k))) := by
  have hlog : ∀ (w : FVec Ideal S100000x1 .f32) (i : S100000x1.Idx), Host.log w i = Ideal.log (w i) := fun _ _ => rfl
  have hexp : ∀ (w : FVec Ideal S100000x40 .f32) (i : S100000x40.Idx), Host.exp w i = Ideal.exp (w i) := fun _ _ => rfl
  have h0 : constant (F := Ideal) S_ .f32 0x00000000#32 (Shape.Idx.first h_S_) = 0 := Ideal.ofBits_zero_f32
  unfold lessLogSumExp
  rw [subf_apply, broadcastInDim_apply _ bcast_S100000x1_S100000x40_0_1 _ (ix2 r q) (ix2 r (0 : Fin 1)) (fun a => match a with
      | ⟨0, _⟩ => by show r.val = if (100000 : Nat) = 1 then 0 else r.val; rw [if_neg (by decide)]
      | ⟨1, _⟩ => by show (0 : Nat) = if (1 : Nat) = 1 then 0 else q.val; rw [if_pos rfl]),
    hlog, broadcastInDim_apply _ bcast_S100000_S100000x1_0 _ (ix2 r (0 : Fin 1)) (ix1 r) (fun a => match a with
      | ⟨0, _⟩ => by show r.val = if (100000 : Nat) = 1 then 0 else r.val; rw [if_neg (by decide)])]
  simp only [Host.reduceAdd, Ideal.hostReduceAdd_def]
  rw [Ideal.hostReduceAdd_single reducesTo_S100000x40_S100000_d1 (by decide), h0, zero_add]
  refine congrArg (fun s => t (ix2 r q) - Ideal.log s) (Finset.sum_congr rfl fun k _ => ?_)
  rw [hexp, lift_col (by decide : S100000x40.Reduces [1] S100000) r k]
  rfl

/-- Entry `(r, q)` of the last stage: the log-softmax of the row `a[r, ·] + b[·]`. -/
theorem biasLogSoftmax_apply (a : (⟨S100000x40, .f32⟩ : BufTy).Contents (Elt Ideal)) (b : (⟨S1x40, .f32⟩ : BufTy).Contents (Elt Ideal))
    (r : Fin 100000) (q : Fin 40) :
    biasLogSoftmax (F := Ideal) a b (ix2 r q) = rowLogSoftmax (fun k => a (ix2 r k) + b (ix2 (0 : Fin 1) k)) q := by
  unfold biasLogSoftmax rowLogSoftmax
  rw [lessLogSumExp_apply]
  simp only [shifted_apply, biased40_apply]

end Cert.ReferenceIdeal.Spec

end
-- ==== Proof.KPay.lean ====
/-
  What each kernel body stores, read at one entry of its block, on the extended reals (a change of float format is the
  identity there, and a matrix product into a zero accumulator is the plain sum): the two product bodies store
  `Σ_k x[p, k] · w[k, q]`; the activation body stores `max(x[p, q] + b[0, q], 0)`; the last body stores the log-softmax of the
  row `x[p, ·] + b[0, ·]` (the row maximum folded from `-inf`, the row sum of the exponentials of the shifted row, its logarithm).
-/
import proofs.«145096_j53919019434434_1_alg».proof.Proof.Gen.KernelIdeal.Skeleton
import proofs.«145096_j53919019434434_1_alg».proof.Proof.RowMath
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## Region 0: the first product, on a block of 2000 rows -/

theorem mm0_lhs0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem mm0_lhs1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem mm0_rhs0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem mm0_rhs1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry `(p, q)` of what region 0's body stores: row `p` of the block of `x` against column `q` of `w`. -/
theorem pay0_apply (x : Vec Ideal S2000x128 .f32) (w : Vec Ideal S128x64 .f32) (p : Fin 2000) (q : Fin 64) :
    k0_pay1 (F := Ideal) x w (ix2 p q) = ∑ k : Fin 128, x (ix2 p k) * w (ix2 k q) := by
  unfold k0_pay1
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact mm0_lhs0 _ _
    | ⟨1, _⟩ => exact (mm0_lhs1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (mm0_rhs0 _ _).trans hk
    | ⟨1, _⟩ => exact mm0_rhs1 _ _)
  rw [el, er]
  rfl

/-! ## Region 1: bias and `max(·, 0)` -/

/-- Entry `(p, q)` of what region 1's body stores. -/
theorem pay1_apply (b : Vec Ideal S1x64 .f32) (x : Vec Ideal S2000x64 .f32) (p : Fin 2000) (q : Fin 64) :
    k1_pay1 (F := Ideal) b x (ix2 p q) = max (x (ix2 p q) + b (ix2 (0 : Fin 1) q)) 0 := by
  unfold k1_pay1
  simp only [shapeCast_self]
  show max (x (ix2 p q) + broadcastTo S2000x64 b broadcasts_S1x64_S2000x64 (ix2 p q)) (Ideal.ofBits .f32 0x00000000#32) = _
  rw [broadcastTo_apply b broadcasts_S1x64_S2000x64 (ix2 p q) (ix2 (0 : Fin 1) q) (fun a => match a with
      | ⟨0, _⟩ => by show (0 : Nat) = if (1 : Nat) = 1 then 0 else _; rw [if_pos rfl]
      | ⟨1, _⟩ => by show q.val = if (64 : Nat) = 1 then 0 else q.val; rw [if_neg (by decide)]),
    Ideal.ofBits_zero_f32]

/-! ## Region 2: the second product -/

theorem mm2_lhs0 (i : S2000x40.Idx) (q : dot_S2000x64_S64x40_S2000x40_1_0_0_1_n_n.contr.Idx) :
    (dot_S2000x64_S64x40_S2000x40_1_0_0_1_n_n.lhsIdx i q 0).val = (i 0).val := by
  unfold DotDims.lhsIdx
  rw [dif_neg (show ¬(0 : Fin S2000x64.rank) ∈ dot_S2000x64_S64x40_S2000x40_1_0_0_1_n_n.lhsBatch by decide), dif_pos (show (0 : Fin S2000x64.rank) ∈ dot_S2000x64_S64x40_S2000x40_1_0_0_1_n_n.lhsNonContracting by decide)]
  rfl
theorem mm2_lhs1 (i : S2000x40.Idx) (q : dot_S2000x64_S64x40_S2000x40_1_0_0_1_n_n.contr.Idx) :
    (dot_S2000x64_S64x40_S2000x40_1_0_0_1_n_n.lhsIdx i q 1).val = (q ⟨0, by decide⟩).val :=
  dot_S2000x64_S64x40_S2000x40_1_0_0_1_n_n.lhsIdx_val_of_single rfl i q
theorem mm2_rhs0 (i : S2000x40.Idx) (q : dot_S2000x64_S64x40_S2000x40_1_0_0_1_n_n.contr.Idx) :
    (dot_S2000x64_S64x40_S2000x40_1_0_0_1_n_n.rhsIdx i q 0).val = (q ⟨0, by decide⟩).val :=
  dot_S2000x64_S64x40_S2000x40_1_0_0_1_n_n.rhsIdx_val_of_single rfl i q
theorem mm2_rhs1 (i : S2000x40.Idx) (q : dot_S2000x64_S64x40_S2000x40_1_0_0_1_n_n.contr.Idx) :
    (dot_S2000x64_S64x40_S2000x40_1_0_0_1_n_n.rhsIdx i q 1).val = (i 1).val := by
  unfold DotDims.rhsIdx
  rw [dif_neg (show ¬(1 : Fin S64x40.rank) ∈ dot_S2000x64_S64x40_S2000x40_1_0_0_1_n_n.rhsBatch by decide), dif_pos (show (1 : Fin S64x40.rank) ∈ dot_S2000x64_S64x40_S2000x40_1_0_0_1_n_n.rhsNonContracting by decide)]
  rfl

/-- Entry `(p, q)` of what region 2's body stores. -/
theorem pay2_apply (x : Vec Ideal S2000x64 .f32) (w : Vec Ideal S64x40 .f32) (p : Fin 2000) (q : Fin 40) :
    k2_pay1 (F := Ideal) x w (ix2 p q) = ∑ k : Fin 64, x (ix2 p k) * w (ix2 k q) := by
  unfold k2_pay1
  simp only [matmul, shapeCast_self]
  rw [Ideal.matmul_constant_zero_apply, ← Equiv.sum_comp (ValueIdx.contrEquiv1 dot_S2000x64_S64x40_S2000x40_1_0_0_1_n_n 64 rfl rfl).symm]
  refine Finset.sum_congr rfl fun k _ => ?_
  have hk := ValueIdx.contrEquiv1_symm_val dot_S2000x64_S64x40_S2000x40_1_0_0_1_n_n 64 rfl rfl k
  have el : dot_S2000x64_S64x40_S2000x40_1_0_0_1_n_n.lhsIdx (ix2 p q) ((ValueIdx.contrEquiv1 dot_S2000x64_S64x40_S2000x40_1_0_0_1_n_n 64 rfl rfl).symm k) = ix2 p k := funext fun a => Fin.ext (by
    match a with
    | ⟨0, _⟩ => exact mm2_lhs0 _ _
    | ⟨1, _⟩ => exact (mm2_lhs1 _ _).trans hk)
  have er : dot_S2000x64_S64x40_S2000x40_1_0_0_1_n_n.rhsIdx (ix2 p q) ((ValueIdx.contrEquiv1 dot_S2000x64_S64x40_S2000x40_1_0_0_1_n_n 64 rfl rfl).symm k) = ix2 k q := funext fun a => Fin.ext (by
    match a with
    | ⟨0, _⟩ => exact (mm2_rhs0 _ _).trans hk
    | ⟨1, _⟩ => exact mm2_rhs1 _ _)
  rw [el, er]
  rfl

/-! ## Region 3: bias and the row-wise log-softmax -/

open Cert.RowMath

/-- The lane maxima of a block's rows, from `-inf`, as the body takes them. -/
def rowMaxes (z : FVec Ideal S2000x40 .f32) : FVec Ideal S2000 .f32 :=
  multiReduction .maximumf [1] S2000 z 0xFF800000#32 reduces_S2000x40_S2000 (.inl rfl) rfl

/-- The lane sums of a block's rows, from zero. -/
def rowSums (e : FVec Ideal S2000x40 .f32) : FVec Ideal S2000 .f32 :=
  multiReduction .add [1] S2000 e 0x00000000#32 reduces_S2000x40_S2000 (.inl rfl) rfl

/-- A value per row spread back over the 40 columns. -/
def spread (v : FVec Ideal S2000 .f32) : FVec Ideal S2000x40 .f32 :=
  broadcastTo S2000x40 (shapeCast S2000x1 v shapeCasts_S2000_S2000x1) broadcasts_S2000x1_S2000x40

/-- The logarithm of a value per row, spread back over the 40 columns. -/
def spreadLog (v : FVec Ideal S2000 .f32) : FVec Ideal S2000x40 .f32 :=
  broadcastTo S2000x40 (log (shapeCast S2000x1 v shapeCasts_S2000_S2000x1)) broadcasts_S2000x1_S2000x40

/-- The body after the bias is added, as a function of the biased block `z`: `z` less its row maximum, less the logarithm of
    the row sum of the exponentials of that difference. -/
def softmaxCore (z : FVec Ideal S2000x40 .f32) : FVec Ideal S2000x40 .f32 :=
  subf (subf z (spread (rowMaxes z))) (spreadLog (rowSums (exp (subf z (spread (rowMaxes z))))))

/-- Region 3's body stores that function of `x + b`, the bias row added to every row. -/
theorem pay3_core (b : Vec Ideal S1x40 .f32) (x : Vec Ideal S2000x40 .f32) :
    k3_pay1 (F := Ideal) b x = softmaxCore (addf (x : FVec Ideal S2000x40 .f32) (broadcastTo S2000x40 (b : FVec Ideal S1x40 .f32) broadcasts_S1x40_S2000x40)) := by
  unfold k3_pay1 softmaxCore spread spreadLog rowMaxes rowSums
  simp only [shapeCast_self]

/-- Entry `(p, q)` of a spread column is the value of row `p`. -/
theorem spread_apply (v : FVec Ideal S2000 .f32) (p : Fin 2000) (q : Fin 40) : spread v (ix2 p q) = v (ix1 p) := by
  unfold spread
  rw [broadcastTo_apply _ broadcasts_S2000x1_S2000x40 (ix2 p q) (ix2 p (0 : Fin 1)) (fun a => match a with
      | ⟨0, _⟩ => by show p.val = if (2000 : Nat) = 1 then 0 else p.val; rw [if_neg (by decide)]
      | ⟨1, _⟩ => by show (0 : Nat) = if (1 : Nat) = 1 then 0 else _; rw [if_pos rfl])]
  exact shapeCast_apply v shapeCasts_S2000_S2000x1 (ix2 p (0 : Fin 1)) (ix1 p) (by
    rw [Shape.rowMajor_val_two, Shape.rowMajor_val_one]; show p.val = p.val * 1 + 0; omega)

/-- The same with the logarithm taken on the column. -/
theorem spreadLog_apply (v : FVec Ideal S2000 .f32) (p : Fin 2000) (q : Fin 40) : spreadLog v (ix2 p q) = Ideal.log (v (ix1 p)) := by
  unfold spreadLog
  rw [broadcastTo_apply _ broadcasts_S2000x1_S2000x40 (ix2 p q) (ix2 p (0 : Fin 1)) (fun a => match a with
      | ⟨0, _⟩ => by show p.val = if (2000 : Nat) = 1 then 0 else p.val; rw [if_neg (by decide)]
      | ⟨1, _⟩ => by show (0 : Nat) = if (1 : Nat) = 1 then 0 else _; rw [if_pos rfl])]
  show Ideal.log (shapeCast S2000x1 v shapeCasts_S2000_S2000x1 (ix2 p (0 : Fin 1))) = _
  rw [shapeCast_apply v shapeCasts_S2000_S2000x1 (ix2 p (0 : Fin 1)) (ix1 p) (by
    rw [Shape.rowMajor_val_two, Shape.rowMajor_val_one]; show p.val = p.val * 1 + 0; omega)]

/-- The lane maximum of row `p` of a block is the row's maximum folded from `-inf`. -/
theorem rowMaxes_apply (z : FVec Ideal S2000x40 .f32) (p : Fin 2000) : rowMaxes z (ix1 p) = rowMax (fun k => z (ix2 p k)) := by
  unfold rowMaxes rowMax
  exact (Ideal.multiReduction_maximumf_single z 0xFF800000#32 reduces_S2000x40_S2000 (.inl rfl) rfl (ix1 p)).trans
    (congrArg (fun f => (Finset.univ : Finset (Fin 40)).fold max (Ideal.ofBits .f32 0xFF800000#32) f)
      (funext fun k => congrArg z (lift_col reduces_S2000x40_S2000 p k)))

/-- The lane sum of row `p` of a block is the sum over its 40 entries. -/
theorem rowSums_apply (e : FVec Ideal S2000x40 .f32) (p : Fin 2000) : rowSums e (ix1 p) = ∑ k : Fin 40, e (ix2 p k) := by
  unfold rowSums
  exact (Ideal.multiReduction_add_single e 0x00000000#32 reduces_S2000x40_S2000 (.inl rfl) rfl (ix1 p)).trans
    (Finset.sum_congr rfl fun k _ => congrArg e (lift_col reduces_S2000x40_S2000 p k))

/-- Entry `(p, q)` of the core is the log-softmax of row `p` at `q`. -/
theorem softmaxCore_apply (z : FVec Ideal S2000x40 .f32) (p : Fin 2000) (q : Fin 40) :
    softmaxCore z (ix2 p q) = rowLogSoftmax (fun k => z (ix2 p k)) q := by
  unfold softmaxCore
  show (z (ix2 p q) - spread (rowMaxes z) (ix2 p q)) - spreadLog (rowSums (exp (subf z (spread (rowMaxes z))))) (ix2 p q) = _
  rw [spread_apply, spreadLog_apply, rowMaxes_apply, rowSums_apply]
  unfold rowLogSoftmax
  refine congrArg (fun s => (z (ix2 p q) - rowMax fun k => z (ix2 p k)) - Ideal.log s) (Finset.sum_congr rfl fun k _ => ?_)
  show Ideal.exp (z (ix2 p k) - spread (rowMaxes z) (ix2 p k)) = _
  rw [spread_apply, rowMaxes_apply]

/-- Entry `(p, q)` of what region 3's body stores. -/
theorem pay3_apply (b : Vec Ideal S1x40 .f32) (x : Vec Ideal S2000x40 .f32) (p : Fin 2000) (q : Fin 40) :
    k3_pay1 (F := Ideal) b x (ix2 p q) = rowLogSoftmax (fun k => x (ix2 p k) + b (ix2 (0 : Fin 1) k)) q := by
  rw [pay3_core, softmaxCore_apply]
  refine congrArg (fun f => rowLogSoftmax f q) (funext fun k => ?_)
  show x (ix2 p k) + broadcastTo S2000x40 (b : FVec Ideal S1x40 .f32) broadcasts_S1x40_S2000x40 (ix2 p k) = _
  rw [broadcastTo_apply (b : FVec Ideal S1x40 .f32) broadcasts_S1x40_S2000x40 (ix2 p k) (ix2 (0 : Fin 1) k) (fun a => match a with
      | ⟨0, _⟩ => by show (0 : Nat) = if (1 : Nat) = 1 then 0 else _; rw [if_pos rfl]
      | ⟨1, _⟩ => by show k.val = if (40 : Nat) = 1 then 0 else k.val; rw [if_neg (by decide)])]

end Cert.KernelIdeal.Body

end
-- ==== Proof.Region0.lean ====
/-
  Region 0 of the kernel (the first dense product, fifty blocks of 2000 rows): whatever the arrays hold when the region is
  entered, its result array ends holding `x · w`. Point `t` reads rows `2000 t … 2000 t + 1999` of `x` and the whole of `w`,
  and writes the same rows of the result, each entry the sum over the 128 shared coordinates; the row blocks tile the result.
-/
import proofs.«145096_j53919019434434_1_alg».proof.Proof.Gen.KernelIdeal.Frame
import proofs.«145096_j53919019434434_1_alg».proof.Proof.Spec
import proofs.«145096_j53919019434434_1_alg».proof.Proof.SpecAt
import proofs.«145096_j53919019434434_1_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block `(t, 0)`, the weight matrix at block `(0, 0)`. -/
theorem idx_facts : ∀ t : Fin cfg0.N, t.val < 50
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of point `t`'s block of `x` is entry `(2000 t + p, k)` of the array. -/
theorem x_read (c : Dev nD) (t : Fin cfg0.N) (p : Fin 2000) (k : Fin 128) (r : Fin 100000) (hr : r.val = 2000 * t.val + p.val) :
    (iblk0 V c 0 t : Vec Ideal S2000x128 .f32) (ix2 p k) = (V c main_arg0 : S100000x128.Idx → Elt Ideal .f32) (ix2 r k) := by
  obtain ⟨_, e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight window's block is the whole matrix. -/
theorem w_read (c : Dev nD) (t : Fin cfg0.N) (k : Fin 128) (q : Fin 64) :
    (iblk0 V c 1 t : Vec Ideal S128x64 .f32) (ix2 k q) = (V c main_arg2 : S128x64.Idx → Elt Ideal .f32) (ix2 k q) := by
  obtain ⟨_, _, _, e2, e3, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Entry `(p, q)` of the block point `t` writes back is entry `(2000 t + p, q)` of the result array. -/
theorem out_emb (t : Fin cfg0.N) (p : Fin 2000) (q : Fin 64) (r : Fin 100000) (hr : r.val = 2000 * t.val + p.val) :
    ((cfg0.win 2).blk t).view.emb (ix2 p q : S2000x64.Idx) = (ix2 r q : S100000x64.Idx) := by
  obtain ⟨_, _, _, _, _, e4, e5⟩ := idx_facts t
  funext a; apply Fin.ext
  match a with
  | ⟨0, _⟩ => show win0_2.index t (0 : Fin 2) * 2000 + 1 * p.val = r.val; rw [e4, hr]; omega
  | ⟨1, _⟩ => show win0_2.index t (1 : Fin 2) * 64 + 1 * q.val = q.val; rw [e5]; omega

/-- What point `t` writes back is block `t` of `x · w` of the arrays the region finds. -/
theorem flushed_eq (c : Dev nD) (t : Fin cfg0.N) :
    (dat0 V c).flushed 2 t = ((cfg0.win 2).blk t).view.read (Elt Ideal) (Cert.ReferenceIdeal.Spec.lin1 (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  funext j
  obtain ⟨p, q, rfl⟩ : ∃ (p : Fin 2000) (q : Fin 64), j = (ix2 p q : S2000x64.Idx) := ⟨j 0, j 1, eq_ix2 (n0 := 2000) (n1 := 64) j⟩
  have hp : p.val < 2000 := p.isLt
  obtain ⟨ht, -⟩ := idx_facts t
  have hr : 2000 * t.val + p.val < 100000 := by omega
  rw [View.read_apply, out_emb t p q ⟨_, hr⟩ rfl, Cert.ReferenceIdeal.Spec.lin1_apply]
  exact (Body.pay0_apply (iblk0 V c 0 t) (iblk0 V c 1 t) p q).trans
    (Finset.sum_congr rfl fun k _ => by rw [x_read V c t p k ⟨_, hr⟩ rfl, w_read V c t k q])

/-- Every entry of the result array lies in the block of the point that owns its row. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨_, _, _, _, _, e4, e5⟩ := idx_facts t
  refine ⟨t, flush0_2 t, ?_⟩
  show i ∈ ((View.whole main_v28).slice (win0_2.rect t)).set
  rw [View.set_slice_whole, Rect.mem_set_unit]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 64 ≤ (i 1).val ∧ (i 1).val < win0_2.index t (1 : Fin 2) * 64 + 64; rw [e5]; omega

/-- The result array after the region. -/
theorem final (c : Dev nD) : (dat0 V c).arrAt 2 cfg0.N = Cert.ReferenceIdeal.Spec.lin1 (V c main_arg0) (V c main_arg2) :=
  (dat0 V c).arrAt_eq_of_cover 2 _ (fun t _ => flushed_eq V c t) cover

end Cert.KernelIdeal.Region0

end
-- ==== Proof.Region1.lean ====
/-
  Region 1 of the kernel (bias and `max(·, 0)`, fifty blocks of 2000 rows): whatever the arrays hold when the region is
  entered, its result array ends holding `max(a + b, 0)` of the two arrays it reads, the bias row `b` added to every row of `a`.
  Point `t` reads rows `2000 t … 2000 t + 1999` of `a` and the whole one-row array `b`, and writes the same rows of the result;
  the fifty row blocks tile the result array.
-/
import proofs.«145096_j53919019434434_1_alg».proof.Proof.Gen.KernelIdeal.Frame
import proofs.«145096_j53919019434434_1_alg».proof.Proof.Spec
import proofs.«145096_j53919019434434_1_alg».proof.Proof.SpecAt
import proofs.«145096_j53919019434434_1_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block `(t, 0)`, the bias row at block `(0, 0)`. -/
theorem idx_facts : ∀ t : Fin cfg1.N, t.val < 50
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(p, q)` of point `t`'s block of the first operand is entry `(2000 t + p, q)` of its array. -/
theorem rows_read (c : Dev nD) (t : Fin cfg1.N) (p : Fin 2000) (q : Fin 64) (r : Fin 100000) (hr : r.val = 2000 * t.val + p.val) :
    (iblk1 V c 0 t : Vec Ideal S2000x64 .f32) (ix2 p q) = (V c main_v40 : S100000x64.Idx → Elt Ideal .f32) (ix2 r q) := by
  obtain ⟨_, e0, e1, -⟩ := idx_facts t
  unfold iblk1
  rw [View.read_apply]
  show V c main_v40 _ = V c main_v40 _
  refine congrArg (V c main_v40) (funext fun a => Fin.ext ?_)
  match a with
  | ⟨0, _⟩ => show win1_0.index t (0 : Fin 2) * 2000 + 1 * p.val = r.val; rw [e0, hr]; omega
  | ⟨1, _⟩ => show win1_0.index t (1 : Fin 2) * 64 + 1 * q.val = q.val; rw [e1]; omega

/-- The bias window's block is the whole one-row array. -/
theorem bias_read (c : Dev nD) (t : Fin cfg1.N) (q : Fin 64) :
    (iblk1 V c 1 t : Vec Ideal S1x64 .f32) (ix2 (0 : Fin 1) q) = (V c main_v41 : S1x64.Idx → Elt Ideal .f32) (ix2 (0 : Fin 1) q) := by
  obtain ⟨_, _, _, e2, e3, -⟩ := idx_facts t
  unfold iblk1
  rw [View.read_apply]
  show V c main_v41 _ = V c main_v41 _
  refine congrArg (V c main_v41) (funext fun a => Fin.ext ?_)
  match a with
  | ⟨0, _⟩ => show win1_1.index t (0 : Fin 2) * 1 + 1 * 0 = 0; rw [e2]
  | ⟨1, _⟩ => show win1_1.index t (1 : Fin 2) * 64 + 1 * q.val = q.val; rw [e3]; omega

/-- Entry `(p, q)` of the block point `t` writes back is entry `(2000 t + p, q)` of the result array. -/
theorem out_emb (t : Fin cfg1.N) (p : Fin 2000) (q : Fin 64) (r : Fin 100000) (hr : r.val = 2000 * t.val + p.val) :
    ((cfg1.win 2).blk t).view.emb (ix2 p q : S2000x64.Idx) = (ix2 r q : S100000x64.Idx) := by
  obtain ⟨_, _, _, _, _, e4, e5⟩ := idx_facts t
  funext a; apply Fin.ext
  match a with
  | ⟨0, _⟩ => show win1_2.index t (0 : Fin 2) * 2000 + 1 * p.val = r.val; rw [e4, hr]; omega
  | ⟨1, _⟩ => show win1_2.index t (1 : Fin 2) * 64 + 1 * q.val = q.val; rw [e5]; omega

/-- What point `t` writes back is block `t` of `max(a + b, 0)` of the arrays the region finds. -/
theorem flushed_eq (c : Dev nD) (t : Fin cfg1.N) :
    (dat1 V c).flushed 2 t = ((cfg1.win 2).blk t).view.read (Elt Ideal) (Cert.ReferenceIdeal.Spec.biasRelu (V c main_v40) (V c main_v41)) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  funext j
  obtain ⟨p, q, rfl⟩ : ∃ (p : Fin 2000) (q : Fin 64), j = (ix2 p q : S2000x64.Idx) := ⟨j 0, j 1, eq_ix2 (n0 := 2000) (n1 := 64) j⟩
  have hp : p.val < 2000 := p.isLt
  obtain ⟨ht, -⟩ := idx_facts t
  have hr : 2000 * t.val + p.val < 100000 := by omega
  rw [View.read_apply, out_emb t p q ⟨_, hr⟩ rfl, Cert.ReferenceIdeal.Spec.biasRelu_apply]
  refine (Body.pay1_apply (iblk1 V c 1 t) (iblk1 V c 0 t) p q).trans ?_
  rw [rows_read V c t p q ⟨_, hr⟩ rfl, bias_read V c t q]
  rfl

/-- Every entry of the result array lies in the block of the point that owns its row. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨_, _, _, _, _, e4, e5⟩ := idx_facts t
  refine ⟨t, flush1_2 t, ?_⟩
  show i ∈ ((View.whole main_v42).slice (win1_2.rect t)).set
  rw [View.set_slice_whole, Rect.mem_set_unit]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 64 ≤ (i 1).val ∧ (i 1).val < win1_2.index t (1 : Fin 2) * 64 + 64; rw [e5]; omega

/-- The result array after the region. -/
theorem final (c : Dev nD) : (dat1 V c).arrAt 2 cfg1.N = Cert.ReferenceIdeal.Spec.biasRelu (V c main_v40) (V c main_v41) :=
  (dat1 V c).arrAt_eq_of_cover 2 _ (fun t _ => flushed_eq V c t) cover

end Cert.KernelIdeal.Region1

end
-- ==== Proof.Region2.lean ====
/-
  Region 2 of the kernel (the second dense product, fifty blocks of 2000 rows): whatever the arrays hold when the region is
  entered, its result array ends holding `x · w` for the 100000 × 64 array `x` and the 64 × 40 matrix `w` it reads.
  Point `t` reads rows `2000 t … 2000 t + 1999` of `x` and the whole of `w`, and writes the same rows of the result,
  each entry the sum over the 64 shared coordinates; the row blocks tile the result.
-/
import proofs.«145096_j53919019434434_1_alg».proof.Proof.Gen.KernelIdeal.Frame
import proofs.«145096_j53919019434434_1_alg».proof.Proof.Spec
import proofs.«145096_j53919019434434_1_alg».proof.Proof.SpecAt
import proofs.«145096_j53919019434434_1_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block `(t, 0)`, the weight matrix at block `(0, 0)`. -/
theorem idx_facts : ∀ t : Fin cfg2.N, t.val < 50
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of point `t`'s block of `x` is entry `(2000 t + p, k)` of the array. -/
theorem x_read (c : Dev nD) (t : Fin cfg2.N) (p : Fin 2000) (k : Fin 64) (r : Fin 100000) (hr : r.val = 2000 * t.val + p.val) :
    (iblk2 V c 0 t : Vec Ideal S2000x64 .f32) (ix2 p k) = (V c main_v42 : S100000x64.Idx → Elt Ideal .f32) (ix2 r k) := by
  obtain ⟨_, e0, e1, -⟩ := idx_facts t
  unfold iblk2
  rw [View.read_apply]
  show V c main_v42 _ = V c main_v42 _
  refine congrArg (V c main_v42) (funext fun a => Fin.ext ?_)
  match a with
  | ⟨0, _⟩ => show win2_0.index t (0 : Fin 2) * 2000 + 1 * p.val = r.val; rw [e0, hr]; omega
  | ⟨1, _⟩ => show win2_0.index t (1 : Fin 2) * 64 + 1 * k.val = k.val; rw [e1]; omega

/-- The weight window's block is the whole matrix. -/
theorem w_read (c : Dev nD) (t : Fin cfg2.N) (k : Fin 64) (q : Fin 40) :
    (iblk2 V c 1 t : Vec Ideal S64x40 .f32) (ix2 k q) = (V c main_arg4 : S64x40.Idx → Elt Ideal .f32) (ix2 k q) := by
  obtain ⟨_, _, _, e2, e3, -⟩ := idx_facts t
  unfold iblk2
  rw [View.read_apply]
  show V c main_arg4 _ = V c main_arg4 _
  refine congrArg (V c main_arg4) (funext fun a => Fin.ext ?_)
  match a with
  | ⟨0, _⟩ => show win2_1.index t (0 : Fin 2) * 64 + 1 * k.val = k.val; rw [e2]; omega
  | ⟨1, _⟩ => show win2_1.index t (1 : Fin 2) * 40 + 1 * q.val = q.val; rw [e3]; omega

/-- Entry `(p, q)` of the block point `t` writes back is entry `(2000 t + p, q)` of the result array. -/
theorem out_emb (t : Fin cfg2.N) (p : Fin 2000) (q : Fin 40) (r : Fin 100000) (hr : r.val = 2000 * t.val + p.val) :
    ((cfg2.win 2).blk t).view.emb (ix2 p q : S2000x40.Idx) = (ix2 r q : S100000x40.Idx) := by
  obtain ⟨_, _, _, _, _, e4, e5⟩ := idx_facts t
  funext a; apply Fin.ext
  match a with
  | ⟨0, _⟩ => show win2_2.index t (0 : Fin 2) * 2000 + 1 * p.val = r.val; rw [e4, hr]; omega
  | ⟨1, _⟩ => show win2_2.index t (1 : Fin 2) * 40 + 1 * q.val = q.val; rw [e5]; omega

/-- What point `t` writes back is block `t` of `x · w` of the arrays the region finds. -/
theorem flushed_eq (c : Dev nD) (t : Fin cfg2.N) :
    (dat2 V c).flushed 2 t = ((cfg2.win 2).blk t).view.read (Elt Ideal) (Cert.ReferenceIdeal.Spec.lin2 (V c main_v42) (V c main_arg4)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x40) hz]
  funext j
  obtain ⟨p, q, rfl⟩ : ∃ (p : Fin 2000) (q : Fin 40), j = (ix2 p q : S2000x40.Idx) := ⟨j 0, j 1, eq_ix2 (n0 := 2000) (n1 := 40) j⟩
  have hp : p.val < 2000 := p.isLt
  obtain ⟨ht, -⟩ := idx_facts t
  have hr : 2000 * t.val + p.val < 100000 := by omega
  rw [View.read_apply, out_emb t p q ⟨_, hr⟩ rfl, Cert.ReferenceIdeal.Spec.lin2_apply]
  exact (Body.pay2_apply (iblk2 V c 0 t) (iblk2 V c 1 t) p q).trans
    (Finset.sum_congr rfl fun k _ => by rw [x_read V c t p k ⟨_, hr⟩ rfl, w_read V c t k q])

/-- Every entry of the result array lies in the block of the point that owns its row. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨_, _, _, _, _, e4, e5⟩ := idx_facts t
  refine ⟨t, flush2_2 t, ?_⟩
  show i ∈ ((View.whole main_v43).slice (win2_2.rect t)).set
  rw [View.set_slice_whole, Rect.mem_set_unit]
  intro a
  match a with
  | ⟨0, _⟩ => show win2_2.index t (0 : Fin 2) * 2000 ≤ (i 0).val ∧ (i 0).val < win2_2.index t (0 : Fin 2) * 2000 + 2000; rw [e4, ht]; omega
  | ⟨1, _⟩ => show win2_2.index t (1 : Fin 2) * 40 ≤ (i 1).val ∧ (i 1).val < win2_2.index t (1 : Fin 2) * 40 + 40; rw [e5]; omega

/-- The result array after the region. -/
theorem final (c : Dev nD) : (dat2 V c).arrAt 2 cfg2.N = Cert.ReferenceIdeal.Spec.lin2 (V c main_v42) (V c main_arg4) :=
  (dat2 V c).arrAt_eq_of_cover 2 _ (fun t _ => flushed_eq V c t) cover

end Cert.KernelIdeal.Region2

end
-- ==== Proof.Region3.lean ====
/-
  Region 3 of the kernel (bias and the row-wise log-softmax, fifty blocks of 2000 rows): whatever the arrays hold when the
  region is entered, its result array ends holding the log-softmax of `a + b` along each row, the bias row `b` added to every
  row of `a`. A row's result depends on that row of `a` only, and point `t` holds rows `2000 t … 2000 t + 1999` whole (the
  block is as wide as the array), so the row maximum and the row sum the body takes over its block's lanes are the array's.
-/
import proofs.«145096_j53919019434434_1_alg».proof.Proof.Gen.KernelIdeal.Frame
import proofs.«145096_j53919019434434_1_alg».proof.Proof.Spec
import proofs.«145096_j53919019434434_1_alg».proof.Proof.SpecAt
import proofs.«145096_j53919019434434_1_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen Idealize.ShloMosaic.ValueIdx Cert.RowMath

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows sit at block `(t, 0)`, the bias row at block `(0, 0)`. -/
theorem idx_facts : ∀ t : Fin cfg3.N, t.val < 50
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Point `t`'s blocks of the two operands, and the two arrays, at their literal types. -/
abbrev xblk (c : Dev nD) (t : Fin cfg3.N) : Vec Ideal S2000x40 .f32 := iblk3 V c 0 t
abbrev bblk (c : Dev nD) (t : Fin cfg3.N) : Vec Ideal S1x40 .f32 := iblk3 V c 1 t
abbrev aarr (c : Dev nD) : S100000x40.Idx → Elt Ideal .f32 := V c main_v55
abbrev barr (c : Dev nD) : S1x40.Idx → Elt Ideal .f32 := V c main_v56

/-- Entry `(p, k)` of point `t`'s block of the first operand is entry `(2000 t + p, k)` of its array. -/
theorem rows_read (c : Dev nD) (t : Fin cfg3.N) (p : Fin 2000) (k : Fin 40) (r : Fin 100000) (hr : r.val = 2000 * t.val + p.val) :
    xblk V c t (ix2 p k) = aarr V c (ix2 r k) := by
  obtain ⟨_, e0, e1, -⟩ := idx_facts t
  show iblk3 V c 0 t (ix2 p k) = V c main_v55 (ix2 r k)
  unfold iblk3
  rw [View.read_apply]
  show V c main_v55 _ = V c main_v55 _
  refine congrArg (V c main_v55) (funext fun a => Fin.ext ?_)
  match a with
  | ⟨0, _⟩ => show win3_0.index t (0 : Fin 2) * 2000 + 1 * p.val = r.val; rw [e0, hr]; omega
  | ⟨1, _⟩ => show win3_0.index t (1 : Fin 2) * 40 + 1 * k.val = k.val; rw [e1]; omega

/-- The bias window's block is the whole one-row array. -/
theorem bias_read (c : Dev nD) (t : Fin cfg3.N) (k : Fin 40) :
    bblk V c t (ix2 (0 : Fin 1) k) = barr V c (ix2 (0 : Fin 1) k) := by
  obtain ⟨_, _, _, e2, e3, -⟩ := idx_facts t
  show iblk3 V c 1 t (ix2 (0 : Fin 1) k) = V c main_v56 (ix2 (0 : Fin 1) k)
  unfold iblk3
  rw [View.read_apply]
  show V c main_v56 _ = V c main_v56 _
  refine congrArg (V c main_v56) (funext fun a => Fin.ext ?_)
  match a with
  | ⟨0, _⟩ => show win3_1.index t (0 : Fin 2) * 1 + 1 * 0 = 0; rw [e2]
  | ⟨1, _⟩ => show win3_1.index t (1 : Fin 2) * 40 + 1 * k.val = k.val; rw [e3]; omega

/-- Entry `(p, q)` of the block point `t` writes back is entry `(2000 t + p, q)` of the result array. -/
theorem out_emb (t : Fin cfg3.N) (p : Fin 2000) (q : Fin 40) (r : Fin 100000) (hr : r.val = 2000 * t.val + p.val) :
    ((cfg3.win 2).blk t).view.emb (ix2 p q : S2000x40.Idx) = (ix2 r q : S100000x40.Idx) := by
  obtain ⟨_, _, _, _, _, e4, e5⟩ := idx_facts t
  funext a; apply Fin.ext
  match a with
  | ⟨0, _⟩ => show win3_2.index t (0 : Fin 2) * 2000 + 1 * p.val = r.val; rw [e4, hr]; omega
  | ⟨1, _⟩ => show win3_2.index t (1 : Fin 2) * 40 + 1 * q.val = q.val; rw [e5]; omega

/-- What point `t` writes back is block `t` of the row-wise log-softmax of `a + b` of the arrays the region finds. -/
theorem flushed_eq (c : Dev nD) (t : Fin cfg3.N) :
    (dat3 V c).flushed 2 t = ((cfg3.win 2).blk t).view.read (Elt Ideal) (Cert.ReferenceIdeal.Spec.biasLogSoftmax (V c main_v55) (V c main_v56)) := by
  show (cfg3.win 2).cut (grid3.coords t) ((dat3 V c).after 2 t) = _
  rw [after3_2]
  unfold out3_2
  rw [View.canon_unit_zero hz]
  simp only [View.ld_unit_zero (S := S2000x40) hz, View.ld_unit_zero (S := S1x40) hz]
  funext j
  obtain ⟨p, q, rfl⟩ : ∃ (p : Fin 2000) (q : Fin 40), j = (ix2 p q : S2000x40.Idx) := ⟨j 0, j 1, eq_ix2 (n0 := 2000) (n1 := 40) j⟩
  have hp : p.val < 2000 := p.isLt
  obtain ⟨ht, -⟩ := idx_facts t
  have hr : 2000 * t.val + p.val < 100000 := by omega
  rw [View.read_apply, out_emb t p q ⟨_, hr⟩ rfl, Cert.ReferenceIdeal.Spec.biasLogSoftmax_apply]
  have key : (fun k : Fin 40 => xblk V c t (ix2 p k) + bblk V c t (ix2 (0 : Fin 1) k))
      = fun k : Fin 40 => aarr V c (ix2 ⟨2000 * t.val + p.val, hr⟩ k) + barr V c (ix2 (0 : Fin 1) k) :=
    funext fun k => by rw [rows_read V c t p k ⟨_, hr⟩ rfl, bias_read V c t k]
  refine (Body.pay3_apply (bblk V c t) (xblk V c t) p q).trans ?_
  rw [key]
  rfl

/-- Every entry of the result array lies in the block of the point that owns its row. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨_, _, _, _, _, e4, e5⟩ := idx_facts t
  refine ⟨t, flush3_2 t, ?_⟩
  show i ∈ ((View.whole main_v57).slice (win3_2.rect t)).set
  rw [View.set_slice_whole, Rect.mem_set_unit]
  intro a
  match a with
  | ⟨0, _⟩ => show win3_2.index t (0 : Fin 2) * 2000 ≤ (i 0).val ∧ (i 0).val < win3_2.index t (0 : Fin 2) * 2000 + 2000; rw [e4, ht]; omega
  | ⟨1, _⟩ => show win3_2.index t (1 : Fin 2) * 40 ≤ (i 1).val ∧ (i 1).val < win3_2.index t (1 : Fin 2) * 40 + 40; rw [e5]; omega

/-- The result array after the region. -/
theorem final (c : Dev nD) : (dat3 V c).arrAt 2 cfg3.N = Cert.ReferenceIdeal.Spec.biasLogSoftmax (V c main_v55) (V c main_v56) :=
  (dat3 V c).arrAt_eq_of_cover 2 _ (fun t _ => flushed_eq V c t) cover

end Cert.KernelIdeal.Region3

end
-- ==== Proof.KGlue.lean ====
/-
  The kernel program's value: what its result array holds after @main, as the network of Spec.lean on the six arguments.
  @main is seven segments: host operations (the edge bookkeeping and the coefficient), region 0 (`x · W1`), host operations
  (layer 1's neighbourhood sum, the bias as a row), region 1 (bias, `max(·, 0)`), region 2 (`· W2`), host operations (layer 2's
  neighbourhood sum, the bias as a row), region 3 (bias, log-softmax). Each host stretch is read once over ANY contents it
  starts from (the same gathers and scatter-adds as the reference's, so each is one of Spec.lean's named functions of the
  buffers it reads); each region's result array is Region0 … Region3's whole-array statement at the contents it is entered
  with; the index vectors, the coefficient and the arguments are carried unchanged through the segments that do not write them.
-/
import proofs.«145096_j53919019434434_1_alg».proof.Proof.Gen.KernelIdeal.Frame
import proofs.«145096_j53919019434434_1_alg».proof.Proof.Spec
import proofs.«145096_j53919019434434_1_alg».proof.Proof.Region0
import proofs.«145096_j53919019434434_1_alg».proof.Proof.Region1
import proofs.«145096_j53919019434434_1_alg».proof.Proof.Region2
import proofs.«145096_j53919019434434_1_alg».proof.Proof.Region3
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo

namespace Cert.KernelIdeal.Glue

open Cert.KernelIdeal Cert.KernelIdeal.Gen Cert.ReferenceIdeal.Spec Idealize.ShloMosaic.ValueIdx

/-! ## A bias vector reshaped to one row is the bias row -/

theorem reshape_row64 {α : Type} (x : (⟨1, ![64]⟩ : Shape).Idx → α) :
    (fun i => shapeCast S1x64 x shapeCasts_S64_S1x64 i) = broadcastInDim Cert.ReferenceIdeal.S1x64 ![1] Cert.ReferenceIdeal.Facts₀.bcast_S64_S1x64_1 x := by
  funext i
  obtain ⟨u, j, rfl⟩ : ∃ (u : Fin 1) (j : Fin 64), i = ix2 u j := ⟨i 0, i 1, eq_ix2 i⟩
  rw [shapeCast_a_1a_apply x shapeCasts_S64_S1x64 u j,
    broadcastInDim_apply _ Cert.ReferenceIdeal.Facts₀.bcast_S64_S1x64_1 x (ix2 u j) (ix1 j) (fun a => match a with
      | ⟨0, _⟩ => by show j.val = if (64 : Nat) = 1 then 0 else j.val; rw [if_neg (by decide)])]

theorem reshape_row40 {α : Type} (x : (⟨1, ![40]⟩ : Shape).Idx → α) :
    (fun i => shapeCast S1x40 x shapeCasts_S40_S1x40 i) = broadcastInDim Cert.ReferenceIdeal.S1x40 ![1] Cert.ReferenceIdeal.Facts₀.bcast_S40_S1x40_1 x := by
  funext i
  obtain ⟨u, j, rfl⟩ : ∃ (u : Fin 1) (j : Fin 40), i = ix2 u j := ⟨i 0, i 1, eq_ix2 i⟩
  rw [shapeCast_a_1a_apply x shapeCasts_S40_S1x40 u j,
    broadcastInDim_apply _ Cert.ReferenceIdeal.Facts₀.bcast_S40_S1x40_1 x (ix2 u j) (ix1 j) (fun a => match a with
      | ⟨0, _⟩ => by show j.val = if (40 : Nat) = 1 then 0 else j.val; rw [if_neg (by decide)])]

/-! ## The three host stretches, from any contents -/

section Stretches

variable {F : FTy → Type} [FloatOps F]
variable (W : Valuation τ sig (Elt F))

/-- The first stretch leaves the sources with the self loops appended, -/
theorem h0_v5 : after hostOps0 W (Proc.devRef .tc main_v5) = srcs (W (Proc.devRef .tc main_arg1)) := by
  after_results_simp
  rfl
/-- the destinations likewise, -/
theorem h0_v6 : after hostOps0 W (Proc.devRef .tc main_v6) = dsts (W (Proc.devRef .tc main_arg1)) := by
  after_results_simp
  rfl
set_option maxHeartbeats 1000000 in
/-- and the edge coefficient as a column; -/
theorem h0_v27 : after hostOps0 W (Proc.devRef .tc main_v27)
    = coef (srcs (W (Proc.devRef .tc main_arg1))) (dsts (W (Proc.devRef .tc main_arg1))) := by
  after_results_simp
  rfl
/-- it writes no argument. -/
theorem h0_arg0 : after hostOps0 W (Proc.devRef .tc main_arg0) = W (Proc.devRef .tc main_arg0) := by after_results_simp
theorem h0_arg2 : after hostOps0 W (Proc.devRef .tc main_arg2) = W (Proc.devRef .tc main_arg2) := by after_results_simp
theorem h0_arg3 : after hostOps0 W (Proc.devRef .tc main_arg3) = W (Proc.devRef .tc main_arg3) := by after_results_simp
theorem h0_arg4 : after hostOps0 W (Proc.devRef .tc main_arg4) = W (Proc.devRef .tc main_arg4) := by after_results_simp
theorem h0_arg5 : after hostOps0 W (Proc.devRef .tc main_arg5) = W (Proc.devRef .tc main_arg5) := by after_results_simp

/-- The second stretch leaves layer 1's neighbourhood sum of the product it finds, -/
theorem h1_v40 : after hostOps1 W (Proc.devRef .tc main_v40)
    = agg64 (W (Proc.devRef .tc main_v5)) (W (Proc.devRef .tc main_v6)) (W (Proc.devRef .tc main_v27)) (W (Proc.devRef .tc main_v28)) := by
  after_results_simp
  rfl
/-- and the first bias as a row; -/
theorem h1_v41 : after hostOps1 W (Proc.devRef .tc main_v41) = row64 (W (Proc.devRef .tc main_arg3)) := by
  after_results_simp
  exact reshape_row64 _
/-- it keeps the index vectors, the coefficient and the later arguments. -/
theorem h1_v5 : after hostOps1 W (Proc.devRef .tc main_v5) = W (Proc.devRef .tc main_v5) := by after_results_simp
theorem h1_v6 : after hostOps1 W (Proc.devRef .tc main_v6) = W (Proc.devRef .tc main_v6) := by after_results_simp
theorem h1_v27 : after hostOps1 W (Proc.devRef .tc main_v27) = W (Proc.devRef .tc main_v27) := by after_results_simp
theorem h1_arg4 : after hostOps1 W (Proc.devRef .tc main_arg4) = W (Proc.devRef .tc main_arg4) := by after_results_simp
theorem h1_arg5 : after hostOps1 W (Proc.devRef .tc main_arg5) = W (Proc.devRef .tc main_arg5) := by after_results_simp

/-- The third stretch leaves layer 2's neighbourhood sum of the product it finds, -/
theorem h3_v55 : after hostOps3 W (Proc.devRef .tc main_v55)
    = agg40 (W (Proc.devRef .tc main_v5)) (W (Proc.devRef .tc main_v6)) (W (Proc.devRef .tc main_v27)) (W (Proc.devRef .tc main_v43)) := by
  after_results_simp
  rfl
/-- and the second bias as a row. -/
theorem h3_v56 : after hostOps3 W (Proc.devRef .tc main_v56) = row40 (W (Proc.devRef .tc main_arg5)) := by
  after_results_simp
  exact reshape_row40 _

end Stretches

/-! ## The contents at the segment boundaries -/

section Boundaries

variable (m : (ℓ : Loc nD τ sig) → Buf (Elt Ideal) ℓ) (ρ : Dev nD → PrngReg)

/-- The index vectors and the coefficient, as functions of the edge list. -/
abbrev S (c : Dev nD) := srcs (F := Ideal) (m ((c.tc : Thread nD τ).loc main_arg1))
abbrev D (c : Dev nD) := dsts (F := Ideal) (m ((c.tc : Thread nD τ).loc main_arg1))

theorem W1_v5 (c : Dev nD) : W1 m ρ c (Proc.devRef .tc main_v5) = S m c := h0_v5 (W0 m ρ c)
theorem W1_v6 (c : Dev nD) : W1 m ρ c (Proc.devRef .tc main_v6) = D m c := h0_v6 (W0 m ρ c)
theorem W1_v27 (c : Dev nD) : W1 m ρ c (Proc.devRef .tc main_v27) = coef (S m c) (D m c) := h0_v27 (W0 m ρ c)
theorem W1_arg0 (c : Dev nD) : W1 m ρ c (Proc.devRef .tc main_arg0) = m ((c.tc : Thread nD τ).loc main_arg0) := h0_arg0 (W0 m ρ c)
theorem W1_arg2 (c : Dev nD) : W1 m ρ c (Proc.devRef .tc main_arg2) = m ((c.tc : Thread nD τ).loc main_arg2) := h0_arg2 (W0 m ρ c)
theorem W1_arg3 (c : Dev nD) : W1 m ρ c (Proc.devRef .tc main_arg3) = m ((c.tc : Thread nD τ).loc main_arg3) := h0_arg3 (W0 m ρ c)
theorem W1_arg4 (c : Dev nD) : W1 m ρ c (Proc.devRef .tc main_arg4) = m ((c.tc : Thread nD τ).loc main_arg4) := h0_arg4 (W0 m ρ c)
theorem W1_arg5 (c : Dev nD) : W1 m ρ c (Proc.devRef .tc main_arg5) = m ((c.tc : Thread nD τ).loc main_arg5) := h0_arg5 (W0 m ρ c)

/-- Region 0 writes only its result array. -/
theorem W2_v5 (c : Dev nD) : W2 m ρ c (Proc.devRef .tc main_v5) = S m c := (W2_of_ne m ρ c main_v5 (by decide)).trans (W1_v5 m ρ c)
theorem W2_v6 (c : Dev nD) : W2 m ρ c (Proc.devRef .tc main_v6) = D m c := (W2_of_ne m ρ c main_v6 (by decide)).trans (W1_v6 m ρ c)
theorem W2_v27 (c : Dev nD) : W2 m ρ c (Proc.devRef .tc main_v27) = coef (S m c) (D m c) := (W2_of_ne m ρ c main_v27 (by decide)).trans (W1_v27 m ρ c)
theorem W2_arg3 (c : Dev nD) : W2 m ρ c (Proc.devRef .tc main_arg3) = m ((c.tc : Thread nD τ).loc main_arg3) := (W2_of_ne m ρ c main_arg3 (by decide)).trans (W1_arg3 m ρ c)
theorem W2_arg4 (c : Dev nD) : W2 m ρ c (Proc.devRef .tc main_arg4) = m ((c.tc : Thread nD τ).loc main_arg4) := (W2_of_ne m ρ c main_arg4 (by decide)).trans (W1_arg4 m ρ c)
theorem W2_arg5 (c : Dev nD) : W2 m ρ c (Proc.devRef .tc main_arg5) = m ((c.tc : Thread nD τ).loc main_arg5) := (W2_of_ne m ρ c main_arg5 (by decide)).trans (W1_arg5 m ρ c)

/-- Region 0's result: the first product of the arguments. -/
theorem W2_v28 (c : Dev nD) : W2 m ρ c (Proc.devRef .tc main_v28)
    = lin1 (m ((c.tc : Thread nD τ).loc main_arg0)) (m ((c.tc : Thread nD τ).loc main_arg2)) := by
  refine (W2_arr m ρ c 2).trans ((Region0.final (V1 m ρ) c).trans ?_)
  show lin1 (W1 m ρ c (Proc.devRef .tc main_arg0)) (W1 m ρ c (Proc.devRef .tc main_arg2)) = _
  rw [W1_arg0, W1_arg2]

/-- After the second stretch. -/
theorem W3_v5 (c : Dev nD) : W3 m ρ c (Proc.devRef .tc main_v5) = S m c := (h1_v5 (W2 m ρ c)).trans (W2_v5 m ρ c)
theorem W3_v6 (c : Dev nD) : W3 m ρ c (Proc.devRef .tc main_v6) = D m c := (h1_v6 (W2 m ρ c)).trans (W2_v6 m ρ c)
theorem W3_v27 (c : Dev nD) : W3 m ρ c (Proc.devRef .tc main_v27) = coef (S m c) (D m c) := (h1_v27 (W2 m ρ c)).trans (W2_v27 m ρ c)
theorem W3_arg4 (c : Dev nD) : W3 m ρ c (Proc.devRef .tc main_arg4) = m ((c.tc : Thread nD τ).loc main_arg4) := (h1_arg4 (W2 m ρ c)).trans (W2_arg4 m ρ c)
theorem W3_arg5 (c : Dev nD) : W3 m ρ c (Proc.devRef .tc main_arg5) = m ((c.tc : Thread nD τ).loc main_arg5) := (h1_arg5 (W2 m ρ c)).trans (W2_arg5 m ρ c)

/-- Layer 1's neighbourhood sum, and its bias row. -/
theorem W3_v40 (c : Dev nD) : W3 m ρ c (Proc.devRef .tc main_v40)
    = agg64 (S m c) (D m c) (coef (S m c) (D m c)) (lin1 (m ((c.tc : Thread nD τ).loc main_arg0)) (m ((c.tc : Thread nD τ).loc main_arg2))) := by
  refine (h1_v40 (W2 m ρ c)).trans ?_
  rw [W2_v5, W2_v6, W2_v27, W2_v28]
theorem W3_v41 (c : Dev nD) : W3 m ρ c (Proc.devRef .tc main_v41) = row64 (m ((c.tc : Thread nD τ).loc main_arg3)) := by
  refine (h1_v41 (W2 m ρ c)).trans ?_
  rw [W2_arg3]

/-- Region 1 writes only its result array. -/
theorem W4_v5 (c : Dev nD) : W4 m ρ c (Proc.devRef .tc main_v5) = S m c := (W4_of_ne m ρ c main_v5 (by decide)).trans (W3_v5 m ρ c)
theorem W4_v6 (c : Dev nD) : W4 m ρ c (Proc.devRef .tc main_v6) = D m c := (W4_of_ne m ρ c main_v6 (by decide)).trans (W3_v6 m ρ c)
theorem W4_v27 (c : Dev nD) : W4 m ρ c (Proc.devRef .tc main_v27) = coef (S m c) (D m c) := (W4_of_ne m ρ c main_v27 (by decide)).trans (W3_v27 m ρ c)
theorem W4_arg4 (c : Dev nD) : W4 m ρ c (Proc.devRef .tc main_arg4) = m ((c.tc : Thread nD τ).loc main_arg4) := (W4_of_ne m ρ c main_arg4 (by decide)).trans (W3_arg4 m ρ c)
theorem W4_arg5 (c : Dev nD) : W4 m ρ c (Proc.devRef .tc main_arg5) = m ((c.tc : Thread nD τ).loc main_arg5) := (W4_of_ne m ρ c main_arg5 (by decide)).trans (W3_arg5 m ρ c)

/-- Region 1's result: the hidden layer. -/
theorem W4_v42 (c : Dev nD) : W4 m ρ c (Proc.devRef .tc main_v42)
    = biasRelu (agg64 (S m c) (D m c) (coef (S m c) (D m c)) (lin1 (m ((c.tc : Thread nD τ).loc main_arg0)) (m ((c.tc : Thread nD τ).loc main_arg2))))
        (row64 (m ((c.tc : Thread nD τ).loc main_arg3))) := by
  refine (W4_arr m ρ c 2).trans ((Region1.final (V3 m ρ) c).trans ?_)
  show biasRelu (W3 m ρ c (Proc.devRef .tc main_v40)) (W3 m ρ c (Proc.devRef .tc main_v41)) = _
  rw [W3_v40, W3_v41]

/-- Region 2 writes only its result array. -/
theorem W5_v5 (c : Dev nD) : W5 m ρ c (Proc.devRef .tc main_v5) = S m c := (W5_of_ne m ρ c main_v5 (by decide)).trans (W4_v5 m ρ c)
theorem W5_v6 (c : Dev nD) : W5 m ρ c (Proc.devRef .tc main_v6) = D m c := (W5_of_ne m ρ c main_v6 (by decide)).trans (W4_v6 m ρ c)
theorem W5_v27 (c : Dev nD) : W5 m ρ c (Proc.devRef .tc main_v27) = coef (S m c) (D m c) := (W5_of_ne m ρ c main_v27 (by decide)).trans (W4_v27 m ρ c)
theorem W5_arg5 (c : Dev nD) : W5 m ρ c (Proc.devRef .tc main_arg5) = m ((c.tc : Thread nD τ).loc main_arg5) := (W5_of_ne m ρ c main_arg5 (by decide)).trans (W4_arg5 m ρ c)

/-- Region 2's result: the second product, of the hidden layer. -/
theorem W5_v43 (c : Dev nD) : W5 m ρ c (Proc.devRef .tc main_v43)
    = lin2 (biasRelu (agg64 (S m c) (D m c) (coef (S m c) (D m c)) (lin1 (m ((c.tc : Thread nD τ).loc main_arg0)) (m ((c.tc : Thread nD τ).loc main_arg2))))
        (row64 (m ((c.tc : Thread nD τ).loc main_arg3)))) (m ((c.tc : Thread nD τ).loc main_arg4)) := by
  refine (W5_arr m ρ c 2).trans ((Region2.final (V4 m ρ) c).trans ?_)
  show lin2 (W4 m ρ c (Proc.devRef .tc main_v42)) (W4 m ρ c (Proc.devRef .tc main_arg4)) = _
  rw [W4_v42, W4_arg4]

/-- THE RESULT ARRAY after region 3: the network of the six arguments. -/
theorem value (c : Dev nD) : W7 m ρ c (Proc.devRef .tc main_v57)
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (W7_arr m ρ c 2).trans ((Region3.final (V6 m ρ) c).trans ?_)
  show biasLogSoftmax (after hostOps3 (W5 m ρ c) (Proc.devRef .tc main_v55)) (after hostOps3 (W5 m ρ c) (Proc.devRef .tc main_v56)) = _
  rw [h3_v55, h3_v56, W5_v5, W5_v6, W5_v27, W5_v43, W5_arg5]
  rfl

end Boundaries

end Cert.KernelIdeal.Glue

end
-- ==== Proof.RefStretch.lean ====
/-
  The reference program's 120 host operations, read in five stretches, each over ANY contents it starts from. The first 35
  compute the first dense product, the two index vectors with the self loops appended and the edge coefficient; the next 22
  layer 1's neighbourhood sum, the bias, `max(·, 0)` and the second dense product; the next 30 the index vectors and the
  coefficient once more (from the same two edge rows and a new `0 … n-1`); the next 18 layer 2's neighbourhood sum and the
  bias; the last 15 the log-softmax. Each stretch's results are Spec.lean's named functions of the buffers the stretch reads,
  and a stretch keeps the buffers it does not write.
-/
import proofs.«145096_j53919019434434_1_alg».proof.Proof.RefRun
import proofs.«145096_j53919019434434_1_alg».proof.Proof.Spec
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.ValueP Cert.ReferenceIdeal.Spec

variable {F : FTy → Type} [FloatOps F]

/-! ## The edge rows and the self loops -/

/-- Row 0 (the sources) and row 1 (the destinations) of the edge list, as vectors. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000
/-- An edge row followed by `0 … n-1`. -/
def withLoops (row : (⟨S1600000, .i32⟩ : BufTy).Contents (Elt F)) : (⟨S1700000, .i32⟩ : BufTy).Contents (Elt F) :=
  concatenate S1700000 0 [⟨S1600000, row⟩, ⟨S100000, (iotaInDim S100000 32 0)⟩] concatenates_S1600000_S100000_S1700000_d0

theorem srcs_eq (e : (⟨S2x1600000, .i32⟩ : BufTy).Contents (Elt F)) : srcs e = withLoops (edgeRow0 e) := rfl
theorem dsts_eq (e : (⟨S2x1600000, .i32⟩ : BufTy).Contents (Elt F)) : dsts e = withLoops (edgeRow1 e) := rfl

/-- Contents carried to a typed reference's buffer type and back are unchanged (the two inlined callees' operations pass
    every value through its typed reference). -/
theorem ofBuf_toBuf {sig' : RefSig} {Val : EltTy → Type} {T : BufTy} (x : TRef sig' T) (v : T.Contents Val) : x.ofBuf (x.toBuf v) = v := by
  obtain ⟨r, rfl, _, _⟩ := x
  rfl

/-! ## The five stretches of the operation list -/

abbrev opsA : List (HloOp τ sig (Elt F)) := (ops (F := F)).take 35
abbrev opsB : List (HloOp τ sig (Elt F)) := ((ops (F := F)).drop 35).take 22
abbrev opsC : List (HloOp τ sig (Elt F)) := ((ops (F := F)).drop 57).take 30
abbrev opsD : List (HloOp τ sig (Elt F)) := ((ops (F := F)).drop 87).take 18
abbrev opsE : List (HloOp τ sig (Elt F)) := (ops (F := F)).drop 105

section Stretches

variable (W : Valuation τ sig (Elt F))

/-! ### Operations 1 … 35 -/

theorem A_v4 : after (opsA (F := F)) W (Proc.devRef .tc main_v4) = lin1 (W (Proc.devRef .tc main_arg0)) (W (Proc.devRef .tc main_arg2)) := by
  simp only [opsA, ops, List.take_succ_cons, List.take_zero]
  after_results_simp
  rfl
theorem A_v1 : after (opsA (F := F)) W (Proc.devRef .tc main_v1) = edgeRow0 (W (Proc.devRef .tc main_arg1)) := by
  simp only [opsA, ops, List.take_succ_cons, List.take_zero]
  after_results_simp
  rfl
theorem A_v3 : after (opsA (F := F)) W (Proc.devRef .tc main_v3) = edgeRow1 (W (Proc.devRef .tc main_arg1)) := by
  simp only [opsA, ops, List.take_succ_cons, List.take_zero]
  after_results_simp
  rfl
theorem A_v6 : after (opsA (F := F)) W (Proc.devRef .tc main_v6) = srcs (W (Proc.devRef .tc main_arg1)) := by
  simp only [opsA, ops, List.take_succ_cons, List.take_zero]
  after_results_simp
  rfl
theorem A_v7 : after (opsA (F := F)) W (Proc.devRef .tc main_v7) = dsts (W (Proc.devRef .tc main_arg1)) := by
  simp only [opsA, ops, List.take_succ_cons, List.take_zero]
  after_results_simp
  rfl
set_option maxHeartbeats 1000000 in
theorem A_v28 : after (opsA (F := F)) W (Proc.devRef .tc main_v28)
    = coef (srcs (W (Proc.devRef .tc main_arg1))) (dsts (W (Proc.devRef .tc main_arg1))) := by
  simp only [opsA, ops, List.take_succ_cons, List.take_zero]
  after_results_simp
  rfl
theorem A_arg3 : after (opsA (F := F)) W (Proc.devRef .tc main_arg3) = W (Proc.devRef .tc main_arg3) := by
  simp only [opsA, ops, List.take_succ_cons, List.take_zero]
  after_results_simp
theorem A_arg4 : after (opsA (F := F)) W (Proc.devRef .tc main_arg4) = W (Proc.devRef .tc main_arg4) := by
  simp only [opsA, ops, List.take_succ_cons, List.take_zero]
  after_results_simp
theorem A_arg5 : after (opsA (F := F)) W (Proc.devRef .tc main_arg5) = W (Proc.devRef .tc main_arg5) := by
  simp only [opsA, ops, List.take_succ_cons, List.take_zero]
  after_results_simp

/-! ### Operations 36 … 57 -/

set_option maxHeartbeats 1000000 in
theorem B_v45 : after (opsB (F := F)) W (Proc.devRef .tc main_v45)
    = lin2 (biasRelu (agg64 (W (Proc.devRef .tc main_v6)) (W (Proc.devRef .tc main_v7)) (W (Proc.devRef .tc main_v28)) (W (Proc.devRef .tc main_v4)))
        (row64 (W (Proc.devRef .tc main_arg3)))) (W (Proc.devRef .tc main_arg4)) := by
  simp only [opsB, ops, List.take_succ_cons, List.take_zero, List.drop_succ_cons, List.drop_zero]
  after_results_simp
  simp only [ofBuf_toBuf]
  rfl
theorem B_v1 : after (opsB (F := F)) W (Proc.devRef .tc main_v1) = W (Proc.devRef .tc main_v1) := by
  simp only [opsB, ops, List.take_succ_cons, List.take_zero, List.drop_succ_cons, List.drop_zero]
  after_results_simp
theorem B_v3 : after (opsB (F := F)) W (Proc.devRef .tc main_v3) = W (Proc.devRef .tc main_v3) := by
  simp only [opsB, ops, List.take_succ_cons, List.take_zero, List.drop_succ_cons, List.drop_zero]
  after_results_simp
theorem B_arg5 : after (opsB (F := F)) W (Proc.devRef .tc main_arg5) = W (Proc.devRef .tc main_arg5) := by
  simp only [opsB, ops, List.take_succ_cons, List.take_zero, List.drop_succ_cons, List.drop_zero]
  after_results_simp

/-! ### Operations 58 … 87 -/

theorem C_v47 : after (opsC (F := F)) W (Proc.devRef .tc main_v47) = withLoops (W (Proc.devRef .tc main_v1)) := by
  simp only [opsC, ops, List.take_succ_cons, List.take_zero, List.drop_succ_cons, List.drop_zero]
  after_results_simp
  rfl
theorem C_v48 : after (opsC (F := F)) W (Proc.devRef .tc main_v48) = withLoops (W (Proc.devRef .tc main_v3)) := by
  simp only [opsC, ops, List.take_succ_cons, List.take_zero, List.drop_succ_cons, List.drop_zero]
  after_results_simp
  rfl
set_option maxHeartbeats 1000000 in
theorem C_v69 : after (opsC (F := F)) W (Proc.devRef .tc main_v69)
    = coef (withLoops (W (Proc.devRef .tc main_v1))) (withLoops (W (Proc.devRef .tc main_v3))) := by
  simp only [opsC, ops, List.take_succ_cons, List.take_zero, List.drop_succ_cons, List.drop_zero]
  after_results_simp
  rfl
theorem C_v45 : after (opsC (F := F)) W (Proc.devRef .tc main_v45) = W (Proc.devRef .tc main_v45) := by
  simp only [opsC, ops, List.take_succ_cons, List.take_zero, List.drop_succ_cons, List.drop_zero]
  after_results_simp
theorem C_arg5 : after (opsC (F := F)) W (Proc.devRef .tc main_arg5) = W (Proc.devRef .tc main_arg5) := by
  simp only [opsC, ops, List.take_succ_cons, List.take_zero, List.drop_succ_cons, List.drop_zero]
  after_results_simp

/-! ### Operations 88 … 105 -/

set_option maxHeartbeats 1000000 in
theorem D_v84 : after (opsD (F := F)) W (Proc.devRef .tc main_v84)
    = biased40 (agg40 (W (Proc.devRef .tc main_v47)) (W (Proc.devRef .tc main_v48)) (W (Proc.devRef .tc main_v69)) (W (Proc.devRef .tc main_v45)))
        (row40 (W (Proc.devRef .tc main_arg5))) := by
  simp only [opsD, ops, List.take_succ_cons, List.take_zero, List.drop_succ_cons, List.drop_zero]
  after_results_simp
  rfl

/-! ### Operations 106 … 120 -/

set_option maxHeartbeats 1000000 in
theorem E_v85 : after (opsE (F := F)) W (Proc.devRef .tc main_v85) = lessLogSumExp (shifted (W (Proc.devRef .tc main_v84))) := by
  simp only [opsE, ops, List.drop_succ_cons, List.drop_zero]
  after_results_simp
  simp only [ofBuf_toBuf]
  rfl

end Stretches

end Cert.ReferenceIdeal.RefValue

end
-- ==== Proof.RefValue.lean ====
/-
  The reference program's value: its five stretches (RefStretch.lean) composed. From any contents the result buffer ends at
  the network of Spec.lean on the six argument buffers, which no operation writes; so every weakly fair execution of @main
  terminates with the result at the network of the arguments' launch contents and the arguments unchanged.
-/
import proofs.«145096_j53919019434434_1_alg».proof.Proof.RefStretch
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.ValueP Cert.ReferenceIdeal.Spec

variable {F : FTy → Type} [FloatOps F]

/-- The operation list is its five stretches in order. -/
theorem ops_split : (ops : List (HloOp τ sig (Elt F))) = opsA ++ (opsB ++ (opsC ++ (opsD ++ opsE))) := by
  simp only [opsA, opsB, opsC, opsD, opsE, ops, List.take_succ_cons, List.take_zero, List.drop_succ_cons, List.drop_zero, List.cons_append, List.nil_append]

/-- The five stretches one after the other, from any contents `V`. -/
theorem value_stretches (V : Valuation τ sig (Elt F)) :
    after (opsA ++ (opsB ++ (opsC ++ (opsD ++ opsE)))) V (Proc.devRef .tc main_v85)
    = net (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [after_append, after_append, after_append, after_append, E_v85, D_v84,
    C_v47, C_v48, C_v69, C_v45, C_arg5, B_v1, B_v3, B_v45, B_arg5,
    A_v1, A_v3, A_v6, A_v7, A_v28, A_v4, A_arg3, A_arg4, A_arg5, ← srcs_eq, ← dsts_eq]
  rfl

/-- From any contents `V` the result buffer ends at the network of the six argument buffers of `V`. -/
theorem value (V : Valuation τ sig (Elt F)) : after (ops (F := F)) V (Proc.devRef .tc main_v85)
    = net (V (Proc.devRef .tc main_arg0)) (V (Proc.devRef .tc main_arg1)) (V (Proc.devRef .tc main_arg2))
        (V (Proc.devRef .tc main_arg3)) (V (Proc.devRef .tc main_arg4)) (V (Proc.devRef .tc main_arg5)) :=
  (congrArg (fun l => after l V (Proc.devRef .tc main_v85)) ops_split).trans (value_stretches V)

/-- No operation writes an argument. -/
theorem kept_arg0 (V : Valuation τ sig (Elt F)) : after (ops (F := F)) V (Proc.devRef .tc main_arg0) = V (Proc.devRef .tc main_arg0) := by after_results_simp
theorem kept_arg1 (V : Valuation τ sig (Elt F)) : after (ops (F := F)) V (Proc.devRef .tc main_arg1) = V (Proc.devRef .tc main_arg1) := by after_results_simp
theorem kept_arg2 (V : Valuation τ sig (Elt F)) : after (ops (F := F)) V (Proc.devRef .tc main_arg2) = V (Proc.devRef .tc main_arg2) := by after_results_simp
theorem kept_arg3 (V : Valuation τ sig (Elt F)) : after (ops (F := F)) V (Proc.devRef .tc main_arg3) = V (Proc.devRef .tc main_arg3) := by after_results_simp
theorem kept_arg4 (V : Valuation τ sig (Elt F)) : after (ops (F := F)) V (Proc.devRef .tc main_arg4) = V (Proc.devRef .tc main_arg4) := by after_results_simp
theorem kept_arg5 (V : Valuation τ sig (Elt F)) : after (ops (F := F)) V (Proc.devRef .tc main_arg5) = V (Proc.devRef .tc main_arg5) := by after_results_simp

/-- THE RUN: every weakly fair execution of @main terminates with the result buffer at the network of the arguments'
    launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v85).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c))⟩)
    (run_seq scopedRefs_eq scopedSems_eq defs main (fun _ => ops) main_eq (fun _ => ops_sub) m ρ)

end Cert.ReferenceIdeal.RefValue

end
-- ==== Proof.lean ====
/-
  The certificate of a two-layer graph-convolution network: a Pallas program of four kernels (two dense products on the
  matrix unit, bias with `max(·, 0)`, bias with a row-wise log-softmax, each over fifty blocks of 2000 rows) with the
  neighbourhood sums left to the host, against its jnp reference.

  On the extended reals the two programs compute one function of the six arguments. A change of float format is the identity
  there, so a kernel's matrix product of its blocks' rows into a zero accumulator is the reference's `dot_general` entry by
  entry (one sum over the shared coordinate); `max(x + b, 0)` is the reference's `relu` of the biased sum; the log-softmax
  bodies agree entry by entry (the row maximum folded from `-inf`; the reference's second maximum against `-inf` changes
  nothing; the row sum of exponentials from zero). A row of a result depends on the same row of the operand only and the
  row blocks are as wide as the arrays, so blocking by rows changes nothing, and the fifty blocks tile each result array.
  The gathers and scatter-adds of the two neighbourhood sums, the degree count and the edge coefficient are the same
  host operations in both programs (the reference computes the coefficient twice, from the same operands), applied to equal
  operands, and are never opened. No algebraic law that fails at an infinity is used, so the precondition is not needed
  for the value.

  Frames: the kernel's two frames are the generated ones; the reference's is its run with the result dropped. The ideal
  pass rewrote nothing, so the kernel's idealization is its own text read at the extended reals.
-/
import proofs.«145096_j53919019434434_1_alg».proof.Defs
import proofs.«145096_j53919019434434_1_alg».proof.Proof.Gen.Kernel
import proofs.«145096_j53919019434434_1_alg».proof.Proof.Gen.Kernel.Skeleton
import proofs.«145096_j53919019434434_1_alg».proof.Proof.Gen.Kernel.Launch
import proofs.«145096_j53919019434434_1_alg».proof.Proof.Gen.Kernel.Points
import proofs.«145096_j53919019434434_1_alg».proof.Proof.Gen.Kernel.Frame
import proofs.«145096_j53919019434434_1_alg».proof.Proof.Gen.KernelIdeal
import proofs.«145096_j53919019434434_1_alg».proof.Proof.Gen.KernelIdeal.Skeleton
import proofs.«145096_j53919019434434_1_alg».proof.Proof.Gen.KernelIdeal.Launch
import proofs.«145096_j53919019434434_1_alg».proof.Proof.Gen.KernelIdeal.Points
import proofs.«145096_j53919019434434_1_alg».proof.Proof.Gen.KernelIdeal.Frame
import proofs.«145096_j53919019434434_1_alg».proof.Proof.Gen.ReferenceIdeal
import proofs.«145096_j53919019434434_1_alg».proof.Proof.Gen.Pre_finite_inputs
import proofs.«145096_j53919019434434_1_alg».proof.Proof.KernelRun
import proofs.«145096_j53919019434434_1_alg».proof.Proof.KGlue
import proofs.«145096_j53919019434434_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Both idealized programs end with the result array at the network of the arguments, which agree. -/
theorem algebraic : Cert.algebraic_KernelIdeal_ReferenceIdeal := by
  intro m ρ m' ρ' _ hagree
  refine ⟨fun c => Cert.ReferenceIdeal.Spec.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Glue.value m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.RefValue.run (F := Ideal) m' ρ')
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
